-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S1x65536x1x8 : Shape := ⟨4, ![1, 65536, 1, 8]⟩
abbrev S11008x512x1 : Shape := ⟨3, ![11008, 512, 1]⟩
abbrev S11008x1x1x1 : Shape := ⟨4, ![11008, 1, 1, 1]⟩
abbrev S11008 : Shape := ⟨1, ![11008]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S1x65536x1x8 : S_.BroadcastsInDim S1x65536x1x8 (![] : Fin 0 → Fin S1x65536x1x8.rank)
  reducesTo_S1x65536x1x8_S_d0_1_2_3 : S1x65536x1x8.ReducesTo [0, 1, 2, 3] S_
  bcast_S_S11008x1x1x1 : S_.BroadcastsInDim S11008x1x1x1 (![] : Fin 0 → Fin S11008x1x1x1.rank)
  reducesTo_S11008x1x1x1_S_d0_1_2_3 : S11008x1x1x1.ReducesTo [0, 1, 2, 3] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4x4096 .f32) (main_arg1 : FVec F S1x65536x1x8 .f32) (main_arg2 : IVec S11008x512x1 32) (main_arg3 : FVec F S11008x1x1x1 .f32) (main_arg4 : FVec F S11008 .f32) : IVec S_ 1 :=
  let main_v0 : FVec F S4x4096 .f32 := Host.absf main_arg0
  let main_cst : FVec F S_ .f32 := constant S_ .f32 0x7F800000#32
  let main_v1 : FVec F S4x4096 .f32 := broadcastInDim S4x4096 ![] bcast_S_S4x4096 main_cst
  let main_v2 : IVec S4x4096 1 := cmpf .olt main_v0 main_v1
  let main_c : IVec S_ 1 := constantI S_ 1 1#1
  let main_v3 : IVec S_ 1 := (fun x v => Host.reduce IntOp.andi x v reducesTo_S4x4096_S_d0_1 h_S_) main_v2 main_c
  let main_v4 : FVec F S1x65536x1x8 .f32 := Host.absf main_arg1
  let main_cst_0 : FVec F S_ .f32 := constant S_ .f32 0x7F800000#32
  let main_v5 : FVec F S1x65536x1x8 .f32 := broadcastInDim S1x65536x1x8 ![] bcast_S_S1x65536x1x8 main_cst_0
  let main_v6 : IVec S1x65536x1x8 1 := cmpf .olt main_v4 main_v5
  let main_c_1 : IVec S_ 1 := constantI S_ 1 1#1
  let main_v7 : IVec S_ 1 := (fun x v => Host.reduce IntOp.andi x v reducesTo_S1x65536x1x8_S_d0_1_2_3 h_S_) main_v6 main_c_1
  let main_v8 : IVec S_ 1 := andi main_v3 main_v7
  let main_v9 : FVec F S11008x1x1x1 .f32 := Host.absf main_arg3
  let main_cst_2 : FVec F S_ .f32 := constant S_ .f32 0x7F800000#32
  let main_v10 : FVec F S11008x1x1x1 .f32 := broadcastInDim S11008x1x1x1 ![] bcast_S_S11008x1x1x1 main_cst_2
  let main_v11 : IVec S11008x1x1x1 1 := cmpf .olt main_v9 main_v10
  let main_c_3 : IVec S_ 1 := constantI S_ 1 1#1
  let main_v12 : IVec S_ 1 := (fun x v => Host.reduce IntOp.andi x v reducesTo_S11008x1x1x1_S_d0_1_2_3 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4x4096 : Shape := ⟨2, ![4, 4096]⟩
abbrev S1x65536x1x8 : Shape := ⟨4, ![1, 65536, 1, 8]⟩
abbrev S11008x512x1 : Shape := ⟨3, ![11008, 512, 1]⟩
abbrev S11008x1x1x1 : Shape := ⟨4, ![11008, 1, 1, 1]⟩
abbrev S11008 : Shape := ⟨1, ![11008]⟩
abbrev S65536x8 : Shape := ⟨2, ![65536, 8]⟩
abbrev S11008x512 : Shape := ⟨2, ![11008, 512]⟩
abbrev S_ : Shape := ⟨0, ![]⟩
abbrev S11008x512x8 : Shape := ⟨3, ![11008, 512, 8]⟩
abbrev S11008x4096 : Shape := ⟨2, ![11008, 4096]⟩
abbrev S1x11008 : Shape := ⟨2, ![1, 11008]⟩
abbrev S4x11008 : Shape := ⟨2, ![4, 11008]⟩
abbrev S256x4096 : Shape := ⟨2, ![256, 4096]⟩
abbrev S1x256 : Shape := ⟨2, ![1, 256]⟩
abbrev S4x256 : Shape := ⟨2, ![4, 256]⟩

abbrev nBuf : Space → Nat
  | .hbm => 22
  | .vmem => 9
  | .smem => 0
  | _ => 0

abbrev bufTy : (tb : Table) → Fin (tcTables nBuf tb) → BufTy
  | .hbm, ⟨0, _⟩ => ⟨S4x4096, .f32⟩
  | .hbm, ⟨1, _⟩ => ⟨S1x65536x1x8, .f32⟩
  | .hbm, ⟨2, _⟩ => ⟨S11008x512x1, .i32⟩
  | .hbm, ⟨3, _⟩ => ⟨S11008x1x1x1, .f32⟩
  | .hbm, ⟨4, _⟩ => ⟨S11008, .f32⟩
  | .hbm, ⟨5, _⟩ => ⟨S65536x8, .f32⟩
  | .hbm, ⟨6, _⟩ => ⟨S11008x512, .i32⟩
  | .hbm, ⟨7, _⟩ => ⟨S_, .i32⟩
  | .hbm, ⟨8, _⟩ => ⟨S11008x512, .i32⟩
  | .hbm, ⟨9, _⟩ => ⟨S11008x512, .i1⟩
  | .hbm, ⟨10, _⟩ => ⟨S_, .i32⟩
  | .hbm, ⟨11, _⟩ => ⟨S11008x512, .i32⟩
  | .hbm, ⟨12, _⟩ => ⟨S11008x512, .i32⟩
  | .hbm, ⟨13, _⟩ => ⟨S11008x512, .i32⟩
  | .hbm, ⟨14, _⟩ => ⟨S11008x512x1, .i32⟩
  | .hbm, ⟨15, _⟩ => ⟨S11008x512x8, .f32⟩
  | .hbm, ⟨16, _⟩ => ⟨S11008x4096, .f32⟩
  | .hbm, ⟨17, _⟩ => ⟨S11008x4096, .bf16⟩
  | .hbm, ⟨18, _⟩ => ⟨S1x11008, .f32⟩
  | .hbm, ⟨19, _⟩ => ⟨S1x11008, .f32⟩
  | .hbm, ⟨20, _⟩ => ⟨S4x4096, .bf16⟩
  | .hbm, ⟨21, _⟩ => ⟨S4x11008, .f32⟩
  | .local _ .vmem, ⟨0, _⟩ => ⟨S4x4096, .bf16⟩
  | .local _ .vmem, ⟨1, _⟩ => ⟨S256x4096, .bf16⟩
  | .local _ .vmem, ⟨2, _⟩ => ⟨S256x4096, .bf16⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S4x256, .f32⟩
  | .local _ .vmem, ⟨8, _⟩ => ⟨S4x256, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x65536x1x8_S65536x8 : S1x65536x1x8.ShapeCasts S65536x8
  shapeCasts_S11008x512x1_S11008x512 : S11008x512x1.ShapeCasts S11008x512
  bcast_S_S11008x512 : S_.BroadcastsInDim S11008x512 (![] : Fin 0 → Fin S11008x512.rank)
  bcast_S11008x512_S11008x512x1_0_1 : S11008x512.BroadcastsInDim S11008x512x1 (![0, 1] : Fin 2 → Fin S11008x512x1.rank)
  shapeCasts_S11008x512x8_S11008x4096 : S11008x512x8.ShapeCasts S11008x4096
  bitsLt_bf16_f32 : FTy.bits .bf16 < FTy.bits .f32
  shapeCasts_S11008x1x1x1_S1x11008 : S11008x1x1x1.ShapeCasts S1x11008
  shapeCasts_S11008_S1x11008 : S11008.ShapeCasts S1x11008
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4x256 : S1x256.Broadcasts S4x256
  inb_S4x256_S4x256_0_0 : ∀ a, (![0, 0] : Fin 2 → Nat) a + S4x256.size a ≤ S4x256.size a
  h_S4x256 : 0 < S4x256.numel
  gather_S65536x8_S11008x512x1_S11008x512x8_2_0_n_n_0_2_18_wf : GatherDims.WF S65536x8 S11008x512x1 S11008x512x8 [2] [0] [] [0] [] 2 ![1, 8]
  dot_S4x4096_S256x4096_S4x256_1_1_0_0_n_n_wf : DotDims.WF S4x4096 S256x4096 S4x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x4096.size a ≤ S4x4096.size a
  hwx0_0 : ∀ i : grid0.Coords, EltTy.bits .bf16 = 32 ∨ (Rect.block (s := S4x4096) S4x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x11008.size a
  hwx0_4 : ∀ i : grid0.Coords, EltTy.bits .f32 = 32 ∨ (Rect.block (s := S4x11008) S4x256.size (cc0_transform_4 i) (hinb0_4 i)).WholeWords (EltTy.packing .f32)

variable [Facts₀]

def gather_S65536x8_S11008x512x1_S11008x512x8_2_0_n_n_0_2_18 : GatherDims S65536x8 S11008x512x1 S11008x512x8 where
  offsetDims := [2]
  collapsedSliceDims := [0]
  operandBatchingDims := []
  startIndicesBatchingDims := []
  startIndexMap := [0]
  indexVectorDim := 2
  sliceSizes := ![1, 8]
  wf := gather_S65536x8_S11008x512x1_S11008x512x8_2_0_n_n_0_2_18_wf
def dot_S4x4096_S256x4096_S4x256_1_1_0_0_n_n : DotDims S4x4096 S256x4096 S4x256 where
  lhsContracting := [1]
  rhsContracting := [1]
  lhsNonContracting := [0]
  rhsNonContracting := [0]
  lhsBatch := []
  rhsBatch := []
  wf := dot_S4x4096_S256x4096_S4x256_1_1_0_0_n_n_wf

abbrev win0_0 : Pipeline.Window sig grid0 :=
  Pipeline.Window.ofSpec (Memref.whole main_v13) S4x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S4x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096 : Shape := ⟨2, ![4, 4096]⟩
abbrev S1x65536x1x8 : Shape := ⟨4, ![1, 65536, 1, 8]⟩
abbrev S11008x512x1 : Shape := ⟨3, ![11008, 512, 1]⟩
abbrev S11008x1x1x1 : Shape := ⟨4, ![11008, 1, 1, 1]⟩
abbrev S11008 : Shape := ⟨1, ![11008]⟩
abbrev S1 : Shape := ⟨1, ![1]⟩
abbrev S1x1x1 : Shape := ⟨3, ![1, 1, 1]⟩
abbrev S_ : Shape := ⟨0, ![]⟩
abbrev S11008x512x1x1 : Shape := ⟨4, ![11008, 512, 1, 1]⟩
abbrev S11008x512x1x2 : Shape := ⟨4, ![11008, 512, 1, 2]⟩
abbrev S11008x512x1x1x8 : Shape := ⟨5, ![11008, 512, 1, 1, 8]⟩
abbrev S11008x512x1x8 : Shape := ⟨4, ![11008, 512, 1, 8]⟩
abbrev S11008x1x512x8 : Shape := ⟨4, ![11008, 1, 512, 8]⟩
abbrev S11008x4096 : Shape := ⟨2, ![11008, 4096]⟩
abbrev S4096x11008 : Shape := ⟨2, ![4096, 11008]⟩
abbrev S4x11008 : Shape := ⟨2, ![4, 11008]⟩
abbrev S1x11008 : Shape := ⟨2, ![1, 11008]⟩

abbrev nBuf : Space → Nat
  | .hbm => 37
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S1x65536x1x8, .f32⟩
  | .hbm, ⟨2, _⟩ => ⟨S11008x512x1, .i32⟩
  | .hbm, ⟨3, _⟩ => ⟨S11008x1x1x1, .f32⟩
  | .hbm, ⟨4, _⟩ => ⟨S11008, .f32⟩
  | .hbm, ⟨5, _⟩ => ⟨S1, .i32⟩
  | .hbm, ⟨6, _⟩ => ⟨S1x1x1, .i32⟩
  | .hbm, ⟨7, _⟩ => ⟨S_, .i32⟩
  | .hbm, ⟨8, _⟩ => ⟨S1x1x1, .i32⟩
  | .hbm, ⟨9, _⟩ => ⟨S1x1x1, .i1⟩
  | .hbm, ⟨10, _⟩ => ⟨S_, .i32⟩
  | .hbm, ⟨11, _⟩ => ⟨S1x1x1, .i32⟩
  | .hbm, ⟨12, _⟩ => ⟨S1x1x1, .i32⟩
  | .hbm, ⟨13, _⟩ => ⟨S1x1x1, .i32⟩
  | .hbm, ⟨14, _⟩ => ⟨S_, .i32⟩
  | .hbm, ⟨15, _⟩ => ⟨S11008x512x1, .i32⟩
  | .hbm, ⟨16, _⟩ => ⟨S11008x512x1, .i1⟩
  | .hbm, ⟨17, _⟩ => ⟨S_, .i32⟩
  | .hbm, ⟨18, _⟩ => ⟨S11008x512x1, .i32⟩
  | .hbm, ⟨19, _⟩ => ⟨S11008x512x1, .i32⟩
  | .hbm, ⟨20, _⟩ => ⟨S11008x512x1, .i32⟩
  | .hbm, ⟨21, _⟩ => ⟨S11008x512x1, .i32⟩
  | .hbm, ⟨22, _⟩ => ⟨S11008x512x1x1, .i32⟩
  | .hbm, ⟨23, _⟩ => ⟨S11008x512x1x1, .i32⟩
  | .hbm, ⟨24, _⟩ => ⟨S11008x512x1x2, .i32⟩
  | .hbm, ⟨25, _⟩ => ⟨S11008x512x1x1x8, .f32⟩
  | .hbm, ⟨26, _⟩ => ⟨S_, .f32⟩
  | .hbm, ⟨27, _⟩ => ⟨S11008x512x1x8, .f32⟩
  | .hbm, ⟨28, _⟩ => ⟨S11008x512x1x8, .f32⟩
  | .hbm, ⟨29, _⟩ => ⟨S11008x512x1x8, .f32⟩
  | .hbm, ⟨30, _⟩ => ⟨S11008x1x512x8, .f32⟩
  | .hbm, ⟨31, _⟩ => ⟨S11008x4096, .f32⟩
  | .hbm, ⟨32, _⟩ => ⟨S4096x11008, .f32⟩
  | .hbm, ⟨33, _⟩ => ⟨S4x11008, .f32⟩
  | .hbm, ⟨34, _⟩ => ⟨S1x11008, .f32⟩
  | .hbm, ⟨35, _⟩ => ⟨S4x11008, .f32⟩
  | .hbm, ⟨36, _⟩ => ⟨S4x11008, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S1_S1x1x1_2 : S1.BroadcastsInDim S1x1x1 (![2] : Fin 1 → Fin S1x1x1.rank)
  bcast_S_S1x1x1 : S_.BroadcastsInDim S1x1x1 (![] : Fin 0 → Fin S1x1x1.rank)
  bcast_S_S11008x512x1 : S_.BroadcastsInDim S11008x512x1 (![] : Fin 0 → Fin S11008x512x1.rank)
  bcast_S1x1x1_S11008x512x1_0_1_2 : S1x1x1.BroadcastsInDim S11008x512x1 (![0, 1, 2] : Fin 3 → Fin S11008x512x1.rank)
  bcast_S11008x512x1_S11008x512x1x1_0_1_2 : S11008x512x1.BroadcastsInDim S11008x512x1x1 (![0, 1, 2] : Fin 3 → Fin S11008x512x1x1.rank)
  concatenates_S11008x512x1x1_S11008x512x1x1_S11008x512x1x2_d3 : Shape.Concatenates [S11008x512x1x1, S11008x512x1x1] S11008x512x1x2 3
  reducesTo_S11008x512x1x1x8_S11008x512x1x8_d2 : S11008x512x1x1x8.ReducesTo [2] S11008x512x1x8
  h_S_ : 0 < S_.numel
  bcast_S11008x1x1x1_S11008x512x1x8_0_1_2_3 : S11008x1x1x1.BroadcastsInDim S11008x512x1x8 (![0, 1, 2, 3] : Fin 4 → Fin S11008x512x1x8.rank)
  transposes_S11008x512x1x8_S11008x1x512x8_0_2_1_3 : S11008x512x1x8.Transposes [0, 2, 1, 3] S11008x1x512x8
  shapeCasts_S11008x1x512x8_S11008x4096 : S11008x1x512x8.ShapeCasts S11008x4096
  transposes_S11008x4096_S4096x11008_1_0 : S11008x4096.Transposes [1, 0] S4096x11008
  bcast_S11008_S1x11008_1 : S11008.BroadcastsInDim S1x11008 (![1] : Fin 1 → Fin S1x11008.rank)
  bcast_S1x11008_S4x11008_0_1 : S1x11008.BroadcastsInDim S4x11008 (![0, 1] : Fin 2 → Fin S4x11008.rank)
  gather_S1x65536x1x8_S11008x512x1x2_S11008x512x1x1x8_34_01_n_n_01_3_1118_wf : GatherDims.WF S1x65536x1x8 S11008x512x1x2 S11008x512x1x1x8 [3, 4] [0, 1] [] [0, 1] [] 3 ![1, 1, 1, 8]
  dot_S4x4096_S4096x11008_S4x11008_1_0_0_1_n_n_wf : DotDims.WF S4x4096 S4096x11008 S4x11008 [1] [0] [0] [1] [] []

variable [Facts₀]

def gather_S1x65536x1x8_S11008x512x1x2_S11008x512x1x1x8_34_01_n_n_01_3_1118 : GatherDims S1x65536x1x8 S11008x512x1x2 S11008x512x1x1x8 where
  offsetDims := [3, 4]
  collapsedSliceDims := [0, 1]
  operandBatchingDims := []
  startIndicesBatchingDims := []
  startIndexMap := [0, 1]
  indexVectorDim := 3
  sliceSizes := ![1, 1, 1, 8]
  wf := gather_S1x65536x1x8_S11008x512x1x2_S11008x512x1x1x8_34_01_n_n_01_3_1118_wf
def dot_S4x4096_S4096x11008_S4x11008_1_0_0_1_n_n : DotDims S4x4096 S4096x11008 S4x11008 where
  lhsContracting := [1]
  rhsContracting := [0]
  lhsNonContracting := [0]
  rhsNonContracting := [1]
  lhsBatch := []
  rhsBatch := []
  wf := dot_S4x4096_S4096x11008_S4x11008_1_0_0_1_n_n_wf

class Facts : Prop extends Facts₀ where

variable [Facts]
-- ==== Proof.Finite.lean ====
import proofs.«124417_j68599217651720_1_alg».proof.Proof.Gen.Pre_finite_inputs
import Idealize.ShloMosaic.PureOps.Ideal
import Idealize.ShloMosaic.PureOps.Ideal.Laws
import Idealize.ShloMosaic.Lib.Affine
import Idealize.ShloMosaic.Lib.ReduceAll
import Idealize.ShloMosaic.Lib.ValueIdx

/-!
What the precondition gives: every entry of the input rows, of the codebook and of the scales is a real number.

The precondition is the conjunction, over the four float arrays, of "every entry's absolute value is below +∞". Among
the extended reals that says the entry is neither infinity, so it is the image of a real number.
-/

noncomputable section

namespace Cert.FiniteInputs

open Idealize.ShloMosaic

/-- An extended real whose absolute value is below `+∞` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec
  · simp [Ideal.cmp] at h
  · exact ⟨_, rfl⟩
  · simp [Ideal.cmp] at h

instance : Subsingleton Cert.Pre_finite_inputs.S_.Idx := ⟨fun a b => funext fun d => d.elim0⟩

open Cert.Pre_finite_inputs in
/-- Under the precondition the input rows, the codebook and the scales hold real numbers. -/
theorem real_of_pre (a0 : FVec Ideal S4x4096 .f32) (a1 : FVec Ideal S1x65536x1x8 .f32) (a2 : IVec S11008x512x1 32)
    (a3 : FVec Ideal S11008x1x1x1 .f32) (a4 : FVec Ideal S11008 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h13, h17⟩ := IntOp.andi_eq_one.1 h0
  obtain ⟨h8, h12⟩ := IntOp.andi_eq_one.1 h13
  obtain ⟨h3, h7⟩ := IntOp.andi_eq_one.1 h8
  exact ⟨fun i => real_of_abs_lt _ (Host.reduce_andi_all _ _ _ _ _ h3 i),
    fun i => real_of_abs_lt _ (Host.reduce_andi_all _ _ _ _ _ h7 i),
    fun i => real_of_abs_lt _ (Host.reduce_andi_all _ _ _ _ _ h12 i)⟩

end Cert.FiniteInputs

end
-- ==== Proof.LibGatherRows3.lean ====
import Idealize.ShloMosaic.PureOps.Ideal
import Idealize.ShloMosaic.Lib.ValueIdx

/-!
A row gather through a rectangle of indices, read at an index.

`table[idx]` with `table : [N, C]` and `idx : [p, q]` gathers whole rows into `[p, q, C]`: the result at `(b, s, k)` is the
table's row named by the start index word at `(b, s)`, read signed and clamped into `[0, N − 1]`, at column `k`. The
indices arrive with a trailing axis of extent one that holds the single index component.
-/

noncomputable section

namespace Idealize.ShloMosaic.IndexOps3

open Idealize.ShloMosaic Idealize.ShloMosaic.ValueIdx

/-- An element of a one-element list, at any valid position, is that element. -/
private theorem getElem_single {β : Type} (l : List β) (a : β) (hl : l = [a]) (i : Nat) (h : i < l.length) :
    l[i] = a := by
  subst hl
  have h0 : i = 0 := by simpa using h
  subst h0
  rfl

/-- The two elements of a two-element list, by position. -/
private theorem getElem_pair {β : Type} (l : List β) (a0 a1 : β) (hl : l = [a0, a1]) (i : Nat) (h : i < l.length) :
    (i = 0 → l[i] = a0) ∧ (i = 1 → l[i] = a1) := by
  subst hl
  constructor <;> intro hi <;> subst hi <;> rfl

/-- A row gather through a rectangle of indices read at `(b, s, k)`: the operand's row at position `(b, s)`'s start
    index, read signed and clamped into `[0, N − 1]`, at column `k`. -/
theorem gather_rows3_apply {α : Type} {N C p q w : Nat} (d : GatherDims ⟨2, ![N, C]⟩ ⟨3, ![p, q, 1]⟩ ⟨3, ![p, q, C]⟩)
    (hoff : d.offsetDims = [2]) (hcoll : d.collapsedSliceDims = [0]) (hob : d.operandBatchingDims = [])
    (hsim : d.startIndexMap = [0]) (hivd : d.indexVectorDim = 2)
    (hss : d.sliceSizes = ![1, C]) (hN : 0 < N)
    (x : (⟨2, ![N, C]⟩ : Shape).Idx → α) (idx : IVec ⟨3, ![p, q, 1]⟩ w) (b : Fin p) (s : Fin q) (k : Fin C) :
    Host.gather d x idx (ix3 b s k) = x (ix2 ⟨min (idx (ix3 b s 0)).toInt.toNat (N - 1), by omega⟩ k) := by
  unfold Host.gather
  congr 1
  funext a
  have hb : ∀ a : Fin 2, a ∉ d.operandBatchingDims := by intro a; rw [hob]; exact List.not_mem_nil
  match a with
  | ⟨0, _⟩ =>
    -- the row axis: collapsed and start-indexed, so the coordinate is the clamped start alone
    apply Fin.ext
    show d.start (ix3 b s k) idx 0 + d.batchCoord (ix3 b s k) 0 + d.offCoord (ix3 b s k) 0
      = min (idx (ix3 b s 0)).toInt.toNat (N - 1)
    have hk : (0 : Fin 2) ∉ d.sKept := by rw [GatherDims.mem_sKept, hcoll]; simp
    have hm : (0 : Fin 2) ∈ d.startIndexMap := by rw [hsim]; exact List.mem_singleton.mpr rfl
    rw [d.batchCoord_eq_zero _ _ (hb 0), d.offCoord_eq_zero _ _ hk]
    simp only [Nat.add_zero]
    unfold GatherDims.start
    rw [dif_pos hm]
    have hsl : d.sliceSizes 0 = 1 := by rw [hss]; rfl
    -- the result's batch axes are 0 and 1, and they read the start indices' axes 0 and 1
    have hbd : d.batchDims = [0, 1] := by
      show (⟨3, ![p, q, C]⟩ : Shape).kept d.offsetDims = [0, 1]
      rw [hoff]; rfl
    have hsk : d.siKept = [0, 1] := by
      show (List.finRange 3).filter (fun x : Fin 3 => decide (x.val ≠ d.indexVectorDim)) = [0, 1]
      rw [hivd]; rfl
    have hsi : d.siIdx (ix3 b s k) ⟨d.startIndexMap.idxOf 0, List.idxOf_lt_length_iff.2 hm⟩ = ix3 b s 0 := by
      funext c
      match c with
      | ⟨0, _⟩ =>
        unfold GatherDims.siIdx
        rw [dif_neg (by rw [hivd]; simp)]
        unfold GatherDims.siCoord
        apply Fin.ext
        simp only [Fin.val_cast]
        have key : ∀ X : Fin 3, X = 0 → ((ix3 b s k : (⟨3, ![p, q, C]⟩ : Shape).Idx) X).val = b.val := by
          intro X hX; subst hX; rfl
        have hpos : d.siKept.idxOf (⟨0, by decide⟩ : Fin 3) = 0 := by rw [hsk]; rfl
        exact key _ ((getElem_pair _ _ _ hbd _ _).1 hpos)
      | ⟨1, _⟩ =>
        unfold GatherDims.siIdx
        rw [dif_neg (by rw [hivd]; simp)]
        unfold GatherDims.siCoord
        apply Fin.ext
        simp only [Fin.val_cast]
        have key : ∀ X : Fin 3, X = 1 → ((ix3 b s k : (⟨3, ![p, q, C]⟩ : Shape).Idx) X).val = s.val := by
          intro X hX; subst hX; rfl
        have hpos : d.siKept.idxOf (⟨1, by decide⟩ : Fin 3) = 1 := by rw [hsk]; rfl
        exact key _ ((getElem_pair _ _ _ hbd _ _).2 hpos)
      | ⟨2, _⟩ =>
        unfold GatherDims.siIdx
        rw [dif_pos (by rw [hivd])]
        apply Fin.ext
        show List.idxOf (0 : Fin 2) d.startIndexMap = 0
        rw [hsim]; simp
    rw [hsi, hsl]
    rfl
  | ⟨1, _⟩ =>
    -- the column axis: kept whole, so the coordinate is the result's coordinate on its one offset axis
    apply Fin.ext
    show d.start (ix3 b s k) idx 1 + d.batchCoord (ix3 b s k) 1 + d.offCoord (ix3 b s k) 1 = k.val
    have hm : (1 : Fin 2) ∉ d.startIndexMap := by rw [hsim]; simp
    have hk : (1 : Fin 2) ∈ d.sKept := by rw [GatherDims.mem_sKept, hcoll, hob]; simp
    rw [d.batchCoord_eq_zero _ _ (hb 1)]
    unfold GatherDims.start
    rw [dif_neg hm]
    unfold GatherDims.offCoord
    rw [dif_pos hk]
    simp only [Nat.add_zero, Nat.zero_add]
    have key : ∀ X : Fin 3, X = 2 → ((ix3 b s k : (⟨3, ![p, q, C]⟩ : Shape).Idx) X).val = k.val := by
      intro X hX; subst hX; rfl
    exact key _ (getElem_single _ _ hoff _ _)

end Idealize.ShloMosaic.IndexOps3

end
-- ==== Proof.Spec.lean ====
import Idealize.ShloMosaic.PureOps.Ideal
import Idealize.ShloMosaic.PureOps.Ideal.Laws
import Idealize.ShloMosaic.Lib.ValueIdx
import Mathlib.Data.EReal.Operations

/-!
A linear layer whose weight matrix is stored as codes into a codebook.

The weight has 11008 rows of 4096 entries. A row is cut into 512 groups of 8 consecutive entries; group `g` of row `n`
is the codebook row named by the code word `codes[n, g]`, and entry `k` of the row is lane `k % 8` of group `k / 8`.
A code word is read as an array index: a negative word counts from the table's end (65536 is added), and the
result is clamped into the table. The layer is `out[b, n] = (∑ k, x[b, k] · w[n, k]) · scale[n] + bias[n]`: the scale
of a row may multiply the finished dot product, or every entry of the row before the product is taken; over real
numbers the two agree, which is the one law this file proves.
-/

noncomputable section

open scoped BigOperators

namespace Cert.CodebookLinear

open Idealize.ShloMosaic Idealize.ShloMosaic.ValueIdx

/-- A code word as an index is read: a negative word counts from the end of the 65536 rows. -/
def wrapCode (c : BitVec 32) : BitVec 32 :=
  Scalar.select (IntOp.cmpi .slt c 0#32) (IntOp.addi c 65536#32) c

/-- The codebook row a code word names: the wrapped word read signed and clamped into `[0, 65535]`. -/
def codeRow (c : BitVec 32) : Fin 65536 := ⟨min (wrapCode c).toInt.toNat (65536 - 1), by omega⟩

/-- Entry `k` of a weight row lies in group `k / 8` … -/
def grp (k : Fin 4096) : Fin 512 := ⟨k.val / 8, by omega⟩
/-- … at lane `k % 8`. -/
def lane (k : Fin 4096) : Fin 8 := ⟨k.val % 8, by omega⟩

/-- The weight before scaling: entry `k` of row `n` is lane `k % 8` of the codebook row that the code of group `k / 8` names. -/
def weight (cb : (⟨4, ![1, 65536, 1, 8]⟩ : Shape).Idx → EReal) (codes : IVec ⟨3, ![11008, 512, 1]⟩ 32)
    (n : Fin 11008) (k : Fin 4096) : EReal :=
  cb (ix4 0 (codeRow (codes (ix3 n (grp k) 0))) 0 (lane k))

/-- The layer: each row's dot product with the input row, scaled by the row's scale, plus the row's bias. -/
def out (x : (⟨2, ![4, 4096]⟩ : Shape).Idx → EReal) (cb : (⟨4, ![1, 65536, 1, 8]⟩ : Shape).Idx → EReal)
    (codes : IVec ⟨3, ![11008, 512, 1]⟩ 32) (s : (⟨4, ![11008, 1, 1, 1]⟩ : Shape).Idx → EReal)
    (bias : (⟨1, ![11008]⟩ : Shape).Idx → EReal) : (⟨2, ![4, 11008]⟩ : Shape).Idx → EReal := fun j =>
  (∑ k : Fin 4096, x (ix2 (j 0) k) * weight cb codes (j 1) k) * s (ix4 (j 1) 0 0 0) + bias (ix1 (j 1))

/-- A finite sum of real numbers, taken among the extended reals, is the real sum. -/
theorem coe_sum {ι : Type} (t : Finset ι) (f : ι → ℝ) : (∑ k ∈ t, ((f k : ℝ) : EReal)) = ((∑ k ∈ t, f k : ℝ) : EReal) := by
  classical
  refine Finset.induction_on t (by simp) fun a t ha ih => ?_
  rw [Finset.sum_insert ha, Finset.sum_insert ha, ih, EReal.coe_add]

/-- Scaling every weight entry before the dot product, or the dot product afterwards: equal when the input row, the
    weight row and the scale are real numbers (among the extended reals the step that moves the scale across the sum
    fails at infinities of both signs). -/
theorem sum_scaled {ι : Type} [Fintype ι] (x w : ι → EReal) (s : EReal)
    (hx : ∀ k, ∃ r : ℝ, x k = (r : EReal)) (hw : ∀ k, ∃ r : ℝ, w k = (r : EReal)) (hs : ∃ r : ℝ, s = (r : EReal)) :
    ∑ k, x k * (w k * s) = (∑ k, x k * w k) * s := by
  obtain ⟨c, rfl⟩ := hs
  choose a ha using hx
  choose b hb using hw
  simp only [ha, hb, ← EReal.coe_mul]
  rw [coe_sum, coe_sum, ← EReal.coe_mul]
  congr 1
  rw [Finset.sum_mul]
  exact Finset.sum_congr rfl fun k _ => by ring

end Cert.CodebookLinear

end
-- ==== Proof.KernelArrays.lean ====
import proofs.«124417_j68599217651720_1_alg».proof.Proof.Gen.KernelIdeal.Frame
import proofs.«124417_j68599217651720_1_alg».proof.Proof.LibGatherRows3
import proofs.«124417_j68599217651720_1_alg».proof.Proof.Spec
import Idealize.ShloMosaic.Lib.Pipeline.Value
import Idealize.ShloMosaic.Lib.ValueIdx
import Idealize.ShloMosaic.Lib.StableHlo.Run

/-!
The four arrays the kernel's windows read, entry by entry.

Before the kernel runs, the host lays its operands out: the input rows unchanged (a change of float format, the
identity on exact values); the weight matrix `[11008, 4096]` gathered from the codebook — entry `(n, k)` is lane `k % 8` of
the codebook row that the code of group `k / 8` of row `n` names —; the scales and the biases each as one row
`[1, 11008]`.
-/

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx Cert.CodebookLinear

variable (m : (ℓ : Loc nD τ sig) → Buf (Elt Ideal) ℓ)

/-- The first window's array is the input rows. -/
theorem inputs_eq (c : Dev nD) :
    (V m c main_v13 : S4x4096.Idx → EReal) = m ((c : Thread nD τ).loc main_arg0) := by
  dsimp only [Gen.V, Gen.hostOps0]
  after_results
  rfl

/-- The third window's array is the scales as one row … -/
theorem scales_eq (c : Dev nD) :
    (V m c main_v11 : S1x11008.Idx → EReal)
      = shapeCast S1x11008 (m ((c : Thread nD τ).loc main_arg3)) Gen.shapeCasts_S11008x1x1x1_S1x11008 := by
  dsimp only [Gen.V, Gen.hostOps0]
  after_results
  rfl

/-- … whose entry `n` is row `n`'s scale. -/
theorem scales_at (c : Dev nD) (n : Fin 11008) :
    (V m c main_v11 : S1x11008.Idx → EReal) (ix2 0 n) = m ((c : Thread nD τ).loc main_arg3) (ix4 n 0 0 0) := by
  rw [scales_eq]
  exact shapeCast_apply _ Gen.shapeCasts_S11008x1x1x1_S1x11008 (ix2 0 n) (ix4 n 0 0 0)
    (by rewrite [Shape.rowMajor_val_four, Shape.rowMajor_val_two]
        show (((n.val * 1 + 0) * 1 + 0) * 1 + 0) = 0 * 11008 + n.val
        omega)

/-- The fourth window's array is the biases as one row … -/
theorem biases_eq (c : Dev nD) :
    (V m c main_v12 : S1x11008.Idx → EReal)
      = shapeCast S1x11008 (m ((c : Thread nD τ).loc main_arg4)) Gen.shapeCasts_S11008_S1x11008 := by
  dsimp only [Gen.V, Gen.hostOps0]
  after_results
  rfl

/-- … whose entry `n` is row `n`'s bias. -/
theorem biases_at (c : Dev nD) (n : Fin 11008) :
    (V m c main_v12 : S1x11008.Idx → EReal) (ix2 0 n) = m ((c : Thread nD τ).loc main_arg4) (ix1 n) := by
  rw [biases_eq]
  exact shapeCast_apply _ Gen.shapeCasts_S11008_S1x11008 (ix2 0 n) (ix1 n)
    (by rewrite [Shape.rowMajor_val_one, Shape.rowMajor_val_two]
        show n.val = 0 * 11008 + n.val
        omega)

/-- The codes laid out as `[11008, 512]`, each wrapped where negative. -/
def wrappedCodes (codes : IVec S11008x512x1 32) : IVec S11008x512 32 :=
  select
    (cmpi .slt (shapeCast S11008x512 codes Gen.shapeCasts_S11008x512x1_S11008x512)
      (broadcastInDim S11008x512 ![] Gen.bcast_S_S11008x512 (constantI S_ 32 0#32)))
    (addi (shapeCast S11008x512 codes Gen.shapeCasts_S11008x512x1_S11008x512)
      (broadcastInDim S11008x512 ![] Gen.bcast_S_S11008x512 (constantI S_ 32 65536#32)))
    (shapeCast S11008x512 codes Gen.shapeCasts_S11008x512x1_S11008x512)

/-- The codebook rows the wrapped codes name, `[11008, 512, 8]`. -/
def gatheredRows (cb : FVec Ideal S1x65536x1x8 .f32) (codes : IVec S11008x512x1 32) : FVec Ideal S11008x512x8 .f32 :=
  Host.gather gather_S65536x8_S11008x512x1_S11008x512x8_2_0_n_n_0_2_18
    (shapeCast S65536x8 cb Gen.shapeCasts_S1x65536x1x8_S65536x8)
    (broadcastInDim S11008x512x1 ![0, 1] Gen.bcast_S11008x512_S11008x512x1_0_1 (wrappedCodes codes))

/-- The host's weight matrix, as a function of the codebook and the codes: the gathered rows laid out as
    `[11008, 4096]`. -/
def hostWeight (cb : FVec Ideal S1x65536x1x8 .f32) (codes : IVec S11008x512x1 32) : FVec Ideal S11008x4096 .bf16 :=
  truncf .bf16 (shapeCast S11008x4096 (gatheredRows cb codes) Gen.shapeCasts_S11008x512x8_S11008x4096) Gen.bitsLt_bf16_f32

/-- The second window's array is that matrix. -/
theorem weights_eq (c : Dev nD) :
    (V m c main_v10 : S11008x4096.Idx → EReal)
      = hostWeight (m ((c : Thread nD τ).loc main_arg1)) (m ((c : Thread nD τ).loc main_arg2)) := by
  dsimp only [Gen.V, Gen.hostOps0]
  after_results
  rfl

/-- The codes laid out as `[11008, 512]`, at `(n, g)`: the code of group `g` of row `n`. -/
theorem codes2_at (codes : IVec S11008x512x1 32) (n : Fin 11008) (g : Fin 512) :
    shapeCast S11008x512 codes Gen.shapeCasts_S11008x512x1_S11008x512 (ix2 n g) = codes (ix3 n g 0) :=
  shapeCast_apply _ Gen.shapeCasts_S11008x512x1_S11008x512 (ix2 n g) (ix3 n g 0)
    (by rewrite [Shape.rowMajor_val_three, Shape.rowMajor_val_two]
        show (n.val * 512 + g.val) * 1 + 0 = n.val * 512 + g.val
        omega)

/-- The codebook laid out as `[65536, 8]`, at `(r, l)`: lane `l` of row `r`. -/
theorem table2_at (cb : FVec Ideal S1x65536x1x8 .f32) (r : Fin 65536) (l : Fin 8) :
    shapeCast S65536x8 cb Gen.shapeCasts_S1x65536x1x8_S65536x8 (ix2 r l) = cb (ix4 0 r 0 l) :=
  shapeCast_apply _ Gen.shapeCasts_S1x65536x1x8_S65536x8 (ix2 r l) (ix4 0 r 0 l)
    (by rewrite [Shape.rowMajor_val_four, Shape.rowMajor_val_two]
        show ((0 * 65536 + r.val) * 1 + 0) * 8 + l.val = r.val * 8 + l.val
        omega)

/-- A wrapped code at `(n, g)`. -/
theorem wrappedCodes_at (codes : IVec S11008x512x1 32) (n : Fin 11008) (g : Fin 512) :
    wrappedCodes codes (ix2 n g) = wrapCode (codes (ix3 n g 0)) := by
  have e := codes2_at codes n g
  unfold wrappedCodes wrapCode
  simp only [select, cmpi, addi]
  rw [e]
  rfl

/-- The gathered rows at `(n, g, l)`: lane `l` of the codebook row the code of group `g` of row `n` names. -/
theorem gatheredRows_at (cb : FVec Ideal S1x65536x1x8 .f32) (codes : IVec S11008x512x1 32) (n : Fin 11008) (g : Fin 512) (l : Fin 8) :
    gatheredRows cb codes (ix3 n g l) = cb (ix4 0 (codeRow (codes (ix3 n g 0))) 0 l) := by
  have hb : broadcastInDim S11008x512x1 ![0, 1] Gen.bcast_S11008x512_S11008x512x1_0_1 (wrappedCodes codes) (ix3 n g 0)
      = wrapCode (codes (ix3 n g 0)) :=
    (broadcastInDim_apply _ Gen.bcast_S11008x512_S11008x512x1_0_1 (wrappedCodes codes) (ix3 n g 0) (ix2 n g) (fun a => by
      match a with
      | ⟨0, _⟩ => rfl
      | ⟨1, _⟩ => rfl)).trans (wrappedCodes_at codes n g)
  unfold gatheredRows
  refine (IndexOps3.gather_rows3_apply gather_S65536x8_S11008x512x1_S11008x512x8_2_0_n_n_0_2_18 rfl rfl rfl rfl rfl rfl (by decide) _ _ n g l).trans ?_
  refine (table2_at cb _ l).trans (congrArg cb ?_)
  refine congrArg (fun r => ix4 (0 : Fin 1) r (0 : Fin 1) l) (Fin.ext ?_)
  show min (broadcastInDim S11008x512x1 ![0, 1] Gen.bcast_S11008x512_S11008x512x1_0_1 (wrappedCodes codes) (ix3 n g 0)).toInt.toNat (65536 - 1)
    = min (wrapCode (codes (ix3 n g 0))).toInt.toNat (65536 - 1)
  rw [hb]

/-- A change of float format keeps every exact value. -/
theorem truncf_at {s : Shape} (x : FVec Ideal s .f32) (h : FTy.bits .bf16 < FTy.bits .f32) (i : s.Idx) :
    truncf .bf16 x h i = x i := rfl

/-- The host's weight matrix at `(n, k)` is the specification's weight. -/
theorem hostWeight_at (cb : FVec Ideal S1x65536x1x8 .f32) (codes : IVec S11008x512x1 32) (n : Fin 11008) (k : Fin 4096) :
    hostWeight cb codes (ix2 n k) = weight cb codes n k := by
  unfold hostWeight weight
  refine (truncf_at _ _ _).trans ?_
  refine (shapeCast_apply _ Gen.shapeCasts_S11008x512x8_S11008x4096 (ix2 n k) (ix3 n (grp k) (lane k))
    (by rewrite [Shape.rowMajor_val_three, Shape.rowMajor_val_two]
        show (n.val * 512 + k.val / 8) * 8 + k.val % 8 = n.val * 4096 + k.val
        omega)).trans ?_
  exact gatheredRows_at cb codes n (grp k) (lane k)

/-- The second window's array at `(n, k)`: the specification's weight of the codebook and the codes as launched. -/
theorem weights_at (c : Dev nD) (n : Fin 11008) (k : Fin 4096) :
    (V m c main_v10 : S11008x4096.Idx → EReal) (ix2 n k)
      = weight (m ((c : Thread nD τ).loc main_arg1)) (m ((c : Thread nD τ).loc main_arg2)) n k := by
  rw [weights_eq]
  exact hostWeight_at _ _ n k

end Cert.KernelIdeal.Arrays

end
-- ==== Proof.KernelBody.lean ====
import proofs.«124417_j68599217651720_1_alg».proof.Proof.Gen.KernelIdeal.Skeleton
import Idealize.ShloMosaic.Lib.Pipeline.Value
import Idealize.ShloMosaic.Lib.ValueIdx
import Idealize.ShloMosaic.PureOps.Ideal.Laws

/-!
What one grid step of the kernel computes, entry by entry.

A step holds the four input rows `x : [4, 4096]`, a tile of 256 weight rows `w : [256, 4096]`, and the tile's 256
scales and 256 biases as rows `[1, 256]`. It writes the `[4, 256]` tile whose entry `(b, q)` is the dot product of input
row `b` with weight row `q` (both summed along their second axis), times scale `q`, plus bias `q`.
-/

noncomputable section

open scoped BigOperators

namespace Cert.KernelIdeal.Body

open Cert.KernelIdeal Cert.KernelIdeal.Gen Idealize.ShloMosaic Idealize.ShloMosaic.ValueIdx

/-- The product's left operand is read at the output's row … -/
theorem lhs_row (i : S4x256.Idx) (q : dot_S4x4096_S256x4096_S4x256_1_1_0_0_n_n.contr.Idx) :
    (dot_S4x4096_S256x4096_S4x256_1_1_0_0_n_n.lhsIdx i q 0).val = (i 0).val := by
  unfold DotDims.lhsIdx
  rw [dif_neg (show ¬(0 : Fin S4x4096.rank) ∈ dot_S4x4096_S256x4096_S4x256_1_1_0_0_n_n.lhsBatch by decide), dif_pos (show (0 : Fin S4x4096.rank) ∈ dot_S4x4096_S256x4096_S4x256_1_1_0_0_n_n.lhsNonContracting by decide)]
  rfl
/-- … and at the summation index along its second axis. -/
theorem lhs_sum (i : S4x256.Idx) (q : dot_S4x4096_S256x4096_S4x256_1_1_0_0_n_n.contr.Idx) :
    (dot_S4x4096_S256x4096_S4x256_1_1_0_0_n_n.lhsIdx i q 1).val = (q ⟨0, by decide⟩).val :=
  dot_S4x4096_S256x4096_S4x256_1_1_0_0_n_n.lhsIdx_val_of_single rfl i q
/-- The right operand is read at the weight row the output's column names … -/
theorem rhs_row (i : S4x256.Idx) (q : dot_S4x4096_S256x4096_S4x256_1_1_0_0_n_n.contr.Idx) :
    (dot_S4x4096_S256x4096_S4x256_1_1_0_0_n_n.rhsIdx i q 0).val = (i 1).val := by
  unfold DotDims.rhsIdx
  rw [dif_neg (show ¬(0 : Fin S256x4096.rank) ∈ dot_S4x4096_S256x4096_S4x256_1_1_0_0_n_n.rhsBatch by decide), dif_pos (show (0 : Fin S256x4096.rank) ∈ dot_S4x4096_S256x4096_S4x256_1_1_0_0_n_n.rhsNonContracting by decide)]
  rfl
/-- … and at the summation index along its second axis too. -/
theorem rhs_sum (i : S4x256.Idx) (q : dot_S4x4096_S256x4096_S4x256_1_1_0_0_n_n.contr.Idx) :
    (dot_S4x4096_S256x4096_S4x256_1_1_0_0_n_n.rhsIdx i q 1).val = (q ⟨0, by decide⟩).val :=
  dot_S4x4096_S256x4096_S4x256_1_1_0_0_n_n.rhsIdx_val_of_single rfl i q

/-- The matrix product into a zero accumulator at `(b, q)`: the sum over `k` of `x[b, k] · w[q, k]`. -/
theorem product_at (x : FVec Ideal S4x4096 .bf16) (w : FVec Ideal S256x4096 .bf16) (b : Fin 4) (q : Fin 256) :
    matmul (F := Ideal) dot_S4x4096_S256x4096_S4x256_1_1_0_0_n_n none x w (constant (F := Ideal) S4x256 .f32 0x00000000#32) (ix2 b q)
      = ∑ k : Fin 4096, x (ix2 b k) * w (ix2 q k) := by
  simp only [matmul]
  rw [Ideal.matmul_constant_zero_apply, ← Equiv.sum_comp (ValueIdx.contrEquiv1 dot_S4x4096_S256x4096_S4x256_1_1_0_0_n_n 4096 rfl rfl).symm]
  refine Finset.sum_congr rfl fun k _ => ?_
  have hk := ValueIdx.contrEquiv1_symm_val dot_S4x4096_S256x4096_S4x256_1_1_0_0_n_n 4096 rfl rfl k
  have el : dot_S4x4096_S256x4096_S4x256_1_1_0_0_n_n.lhsIdx (ix2 b q) ((ValueIdx.contrEquiv1 dot_S4x4096_S256x4096_S4x256_1_1_0_0_n_n 4096 rfl rfl).symm k) = ix2 b k := funext fun a => Fin.ext (by
    match a with
    | ⟨0, _⟩ => exact lhs_row _ _
    | ⟨1, _⟩ => exact (lhs_sum _ _).trans hk)
  have er : dot_S4x4096_S256x4096_S4x256_1_1_0_0_n_n.rhsIdx (ix2 b q) ((ValueIdx.contrEquiv1 dot_S4x4096_S256x4096_S4x256_1_1_0_0_n_n 4096 rfl rfl).symm k) = ix2 q k := funext fun a => Fin.ext (by
    match a with
    | ⟨0, _⟩ => exact rhs_row _ _
    | ⟨1, _⟩ => exact (rhs_sum _ _).trans hk)
  rw [el, er]

/-- A row `[1, 256]` spread over four rows, at `(b, q)`: the row's entry `q`. -/
theorem spread_at (v : FVec Ideal S1x256 .f32) (b : Fin 4) (q : Fin 256) :
    broadcastTo S4x256 v broadcasts_S1x256_S4x256 (ix2 b q) = v (ix2 0 q) :=
  broadcastTo_apply v broadcasts_S1x256_S4x256 (ix2 b q) (ix2 0 q) (fun a => by
    match a with
    | ⟨0, _⟩ => rfl
    | ⟨1, _⟩ => rfl)

/-- The stored tile at `(b, q)`: the dot product of input row `b` with weight row `q`, times scale `q`, plus bias `q`. -/
theorem tile_at (x : Vec Ideal S4x4096 .bf16) (w : Vec Ideal S256x4096 .bf16) (s : Vec Ideal S1x256 .f32) (β : Vec Ideal S1x256 .f32)
    (b : Fin 4) (q : Fin 256) :
    k0_pay1 (F := Ideal) x w s β (ix2 b q) = (∑ k : Fin 4096, x (ix2 b k) * w (ix2 q k)) * s (ix2 0 q) + β (ix2 0 q) := by
  unfold k0_pay1
  rw [shapeCast_self, shapeCast_self, shapeCast_self, shapeCast_self]
  show FloatOps.addf (FloatOps.mulf (matmul (F := Ideal) dot_S4x4096_S256x4096_S4x256_1_1_0_0_n_n none x w (constant (F := Ideal) S4x256 .f32 0x00000000#32) (ix2 b q))
      (broadcastTo S4x256 s broadcasts_S1x256_S4x256 (ix2 b q))) (broadcastTo S4x256 β broadcasts_S1x256_S4x256 (ix2 b q)) = _
  rw [product_at, spread_at, spread_at]
  rfl

end Cert.KernelIdeal.Body

end
-- ==== Proof.KernelLayer.lean ====
import proofs.«124417_j68599217651720_1_alg».proof.Proof.Gen.KernelIdeal.Value
import proofs.«124417_j68599217651720_1_alg».proof.Proof.KernelArrays
import proofs.«124417_j68599217651720_1_alg».proof.Proof.KernelBody
import proofs.«124417_j68599217651720_1_alg».proof.Proof.Spec

/-!
The kernel's result array is the specified layer.

The grid has 43 steps. Step `t` reads all four input rows, the 256 weight rows `256 t … 256 t + 255` and their scales
and biases, and writes columns `256 t … 256 t + 255` of the `[4, 11008]` result. Entry `(b, q)` of the tile it writes is the
layer's entry `(b, 256 t + q)`; the 43 tiles cover the result, column `n` lying in tile `n / 256`.
-/

noncomputable section

open scoped BigOperators

namespace Cert.KernelIdeal.Layer

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.CodebookLinear

variable (m : (ℓ : Loc nD τ sig) → Buf (Elt Ideal) ℓ) (ρ : Dev nD → PrngReg)

/-- The layer of the arguments as launched on core `c`. -/
abbrev layer (c : Dev nD) : S4x11008.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4))

/-- The four input blocks of step `t`, each at its literal shape. -/
abbrev xblk (c : Dev nD) (t : Fin cfg0.N) : Vec Ideal S4x4096 .bf16 := iblk m c 0 t
abbrev wblk (c : Dev nD) (t : Fin cfg0.N) : Vec Ideal S256x4096 .bf16 := iblk m c 1 t
abbrev sblk (c : Dev nD) (t : Fin cfg0.N) : Vec Ideal S1x256 .f32 := iblk m c 2 t
abbrev bblk (c : Dev nD) (t : Fin cfg0.N) : Vec Ideal S1x256 .f32 := iblk m c 3 t

theorem hz : (![0, 0] : Fin 2 → Nat) = fun _ => 0 := funext fun a => by fin_cases a <;> rfl

/-- Where step `t`'s blocks lie: the input rows' block always at the origin, the weight tile at row block `t`, the
    scale, bias and result tiles at column block `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- Column `q` of step `t`'s tile is column `256 t + q` of the result, and row `q` of its weight tile is weight row
    `256 t + q`. -/
def col (t : Fin cfg0.N) (q : Fin 256) : Fin 11008 :=
  ⟨t.val * 256 + q.val, by have ht : t.val < 43 := t.isLt; have hq := q.isLt; omega⟩

/-- The input rows' block is the input rows. -/
theorem xblk_at (c : Dev nD) (t : Fin cfg0.N) (b : Fin 4) (k : Fin 4096) :
    xblk m c t (ix2 b k) = m ((c : Thread nD τ).loc main_arg0) (ix2 b k) := by
  obtain ⟨e0, e1, -⟩ := idx_facts t
  show (V m c main_v13 : S4x4096.Idx → EReal) (((cfg0.win 0).blk t).view.emb (ix2 b k)) = _
  have he : ((cfg0.win 0).blk t).view.emb (ix2 b k) = ix2 b k := funext fun a => Fin.ext (by
    match a with
    | ⟨0, _⟩ => show win0_0.index t (0 : Fin 2) * 4 + 1 * b.val = b.val; omega
    | ⟨1, _⟩ => show win0_0.index t (1 : Fin 2) * 4096 + 1 * k.val = k.val; omega)
  rw [he, Arrays.inputs_eq]

/-- Row `q` of step `t`'s weight tile is weight row `256 t + q`. -/
theorem wblk_at (c : Dev nD) (t : Fin cfg0.N) (q : Fin 256) (k : Fin 4096) :
    wblk m c t (ix2 q k)
      = weight (m ((c : Thread nD τ).loc main_arg1)) (m ((c : Thread nD τ).loc main_arg2)) (col t q) k := by
  obtain ⟨-, -, e0, e1, -⟩ := idx_facts t
  show (V m c main_v10 : S11008x4096.Idx → EReal) (((cfg0.win 1).blk t).view.emb (ix2 q k)) = _
  have he : ((cfg0.win 1).blk t).view.emb (ix2 q k) = ix2 (col t q) k := funext fun a => Fin.ext (by
    match a with
    | ⟨0, _⟩ => show win0_1.index t (0 : Fin 2) * 256 + 1 * q.val = t.val * 256 + q.val; omega
    | ⟨1, _⟩ => show win0_1.index t (1 : Fin 2) * 4096 + 1 * k.val = k.val; omega)
  rw [he]
  exact Arrays.weights_at m c (col t q) k

/-- Entry `q` of step `t`'s scale tile is the scale of row `256 t + q`. -/
theorem sblk_at (c : Dev nD) (t : Fin cfg0.N) (q : Fin 256) :
    sblk m c t (ix2 0 q) = m ((c : Thread nD τ).loc main_arg3) (ix4 (col t q) 0 0 0) := by
  obtain ⟨-, -, -, -, e0, e1, -⟩ := idx_facts t
  show (V m c main_v11 : S1x11008.Idx → EReal) (((cfg0.win 2).blk t).view.emb (ix2 0 q)) = _
  have he : ((cfg0.win 2).blk t).view.emb (ix2 (0 : Fin 1) q) = ix2 (0 : Fin 1) (col t q) := funext fun a => Fin.ext (by
    match a with
    | ⟨0, _⟩ => show win0_2.index t (0 : Fin 2) * 1 + 1 * 0 = 0; omega
    | ⟨1, _⟩ => show win0_2.index t (1 : Fin 2) * 256 + 1 * q.val = t.val * 256 + q.val; omega)
  rw [he]
  exact Arrays.scales_at m c (col t q)

/-- Entry `q` of step `t`'s bias tile is the bias of row `256 t + q`. -/
theorem bblk_at (c : Dev nD) (t : Fin cfg0.N) (q : Fin 256) :
    bblk m c t (ix2 0 q) = m ((c : Thread nD τ).loc main_arg4) (ix1 (col t q)) := by
  obtain ⟨-, -, -, -, -, -, e0, e1, -⟩ := idx_facts t
  show (V m c main_v12 : S1x11008.Idx → EReal) (((cfg0.win 3).blk t).view.emb (ix2 0 q)) = _
  have he : ((cfg0.win 3).blk t).view.emb (ix2 (0 : Fin 1) q) = ix2 (0 : Fin 1) (col t q) := funext fun a => Fin.ext (by
    match a with
    | ⟨0, _⟩ => show win0_3.index t (0 : Fin 2) * 1 + 1 * 0 = 0; omega
    | ⟨1, _⟩ => show win0_3.index t (1 : Fin 2) * 256 + 1 * q.val = t.val * 256 + q.val; omega)
  rw [he]
  exact Arrays.biases_at m c (col t q)

/-- WHAT STEP `t` WRITES BACK is tile `t` of the layer. -/
theorem flushed_eq (c : Dev nD) (t : Fin cfg0.N) :
    (dats m 0 c).flushed 4 t = ((cfg0.win 4).blk t).view.read (Elt Ideal) (layer m c) := by
  rw [Value.flushed4]
  unfold out0_4
  rw [View.canon_unit_zero hz]
  simp only [View.ld_unit_zero (S := S4x4096) hz, View.ld_unit_zero (S := S256x4096) hz, View.ld_unit_zero (S := S1x256) hz]
  obtain ⟨-, -, -, -, -, -, -, -, e0, e1⟩ := idx_facts t
  funext (j : S4x256.Idx)
  obtain ⟨b, q, rfl⟩ : ∃ (b : Fin 4) (q : Fin 256), j = ix2 b q := ⟨j 0, j 1, eq_ix2 j⟩
  show k0_pay1 (F := Ideal) (xblk m c t) (wblk m c t) (sblk m c t) (bblk m c t) (ix2 b q)
    = layer m c (((cfg0.win 4).blk t).view.emb (ix2 b q))
  have he : ((cfg0.win 4).blk t).view.emb (ix2 b q) = ix2 b (col t q) := funext fun a => Fin.ext (by
    match a with
    | ⟨0, _⟩ => show win0_4.index t (0 : Fin 2) * 4 + 1 * b.val = b.val; omega
    | ⟨1, _⟩ => show win0_4.index t (1 : Fin 2) * 256 + 1 * q.val = t.val * 256 + q.val; omega)
  rw [he]
  refine (Body.tile_at (xblk m c t) (wblk m c t) (sblk m c t) (bblk m c t) b q).trans ?_
  rw [sblk_at, bblk_at]
  simp only [xblk_at, wblk_at]
  rfl

/-- An index of the result lies in step `t`'s tile iff each coordinate is in the tile's range on its axis. -/
theorem mem_blk (t : Fin cfg0.N) (i : S4x11008.Idx) :
    i ∈ ((cfg0.win 4).blk t).view.set ↔ ∀ a : Fin 2, win0_4.index t a * S4x256.size a ≤ (i a).val ∧ (i a).val < win0_4.index t a * S4x256.size a + S4x256.size a := by
  show i ∈ ((View.whole main_v14).slice (win0_4.rect t)).set ↔ _
  rw [View.set_slice_whole, Rect.mem_set_unit]
  exact Iff.rfl

/-- Every entry of the result lies in some step's tile: column `n` in tile `n / 256`. -/
theorem cover (i : S4x11008.Idx) : ∃ t : Fin cfg0.N, (cfg0.win 4).flush t = true ∧ i ∈ ((cfg0.win 4).blk t).view.set := by
  have h0 : (i 0).val < 4 := (i 0).isLt
  have h1 : (i 1).val < 11008 := (i 1).isLt
  let t : Fin cfg0.N := ⟨(i 1).val / 256, by show (i 1).val / 256 < 43; omega⟩
  obtain ⟨-, -, -, -, -, -, -, -, e0, e1⟩ := idx_facts t
  have e1' : win0_4.index t (1 : Fin 2) = (i 1).val / 256 := e1
  refine ⟨t, flush0_4 t, ?_⟩
  rw [mem_blk]
  intro a
  match a with
  | ⟨0, _⟩ => show win0_4.index t (0 : Fin 2) * 4 ≤ (i 0).val ∧ (i 0).val < win0_4.index t (0 : Fin 2) * 4 + 4; omega
  | ⟨1, _⟩ => show win0_4.index t (1 : Fin 2) * 256 ≤ (i 1).val ∧ (i 1).val < win0_4.index t (1 : Fin 2) * 256 + 256; omega

/-- THE RESULT ARRAY after the run is the layer of the arguments. -/
theorem final (c : Dev nD) : (dats m 0 c).arrAt 4 cfg0.N = layer m c :=
  (dats m 0 c).arrAt_eq_of_cover 4 (layer m c) (fun t _ => flushed_eq m c t) cover

/-- The kernel's run: the result at the layer of the arguments, the arguments unchanged. -/
theorem run : θ_run defs (onTc (τ := τ) (main (F := Ideal))) ⟨m, fun _ => 0, ρ⟩ fun r => ∀ c : Dev nD,
      r.2.mem ((c : Thread nD τ).loc main_v14) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Layer

end
-- ==== Proof.LibGatherPair.lean ====
import Idealize.ShloMosaic.PureOps.Ideal
import Idealize.ShloMosaic.Lib.ValueIdx

/-!
A gather of lanes from a table with two leading index axes, read at an index.

`table[i0, i1]` with `table : [M, N, O, C]` and a rectangle of index pairs `idx : [p, q, r, 2]` gathers, for every
position `(b, s, u)` of the rectangle, the `[O, C]` slab the pair names, into `[p, q, r, O, C]`. The result at
`(b, s, u, o, k)` is the table at `(i0, i1, o, k)` where `i0` is the pair's first word read signed and clamped into
`[0, M − 1]` and `i1` its second word read signed and clamped into `[0, N − 1]`.
-/

noncomputable section

namespace Idealize.ShloMosaic.IndexOpsPair

open Idealize.ShloMosaic Idealize.ShloMosaic.ValueIdx

/-- The two elements of a two-element list, by position. -/
private theorem getElem_pair {β : Type} (l : List β) (a0 a1 : β) (hl : l = [a0, a1]) (i : Nat) (h : i < l.length) :
    (i = 0 → l[i] = a0) ∧ (i = 1 → l[i] = a1) := by
  subst hl
  constructor <;> intro hi <;> subst hi <;> rfl

/-- The three elements of a three-element list, by position. -/
private theorem getElem_triple {β : Type} (l : List β) (a0 a1 a2 : β) (hl : l = [a0, a1, a2]) (i : Nat) (h : i < l.length) :
    (i = 0 → l[i] = a0) ∧ (i = 1 → l[i] = a1) ∧ (i = 2 → l[i] = a2) := by
  subst hl
  refine ⟨?_, ?_, ?_⟩ <;> intro hi <;> subst hi <;> rfl

section

variable {α : Type} {M N O C p q r w : Nat}
  (d : GatherDims ⟨4, ![M, N, O, C]⟩ ⟨4, ![p, q, r, 2]⟩ ⟨5, ![p, q, r, O, C]⟩)

/-- Where the result index `(b, s, u, o, k)` reads component `cpos` of its index pair: at `(b, s, u, cpos)`. -/
private theorem siIdx_eq (hoff : d.offsetDims = [3, 4]) (hivd : d.indexVectorDim = 3)
    (b : Fin p) (s : Fin q) (u : Fin r) (o : Fin O) (k : Fin C)
    (a : Fin 4) (ha : a ∈ d.startIndexMap) (cpos : Fin 2) (hc : d.startIndexMap.idxOf a = cpos.val) :
    d.siIdx (ix5 b s u o k) ⟨d.startIndexMap.idxOf a, List.idxOf_lt_length_iff.2 ha⟩ = ix4 b s u cpos := by
  -- the result's batch axes are 0, 1, 2, and they read the index rectangle's axes 0, 1, 2
  have hbd : d.batchDims = [0, 1, 2] := by
    show (⟨5, ![p, q, r, O, C]⟩ : Shape).kept d.offsetDims = [0, 1, 2]
    rw [hoff]; rfl
  have hsk : d.siKept = [0, 1, 2] := by
    show (List.finRange 4).filter (fun x : Fin 4 => decide (x.val ≠ d.indexVectorDim)) = [0, 1, 2]
    rw [hivd]; rfl
  funext c
  match c with
  | ⟨0, _⟩ =>
    unfold GatherDims.siIdx
    rw [dif_neg (by rw [hivd]; simp)]
    unfold GatherDims.siCoord
    apply Fin.ext
    simp only [Fin.val_cast]
    have key : ∀ X : Fin 5, X = 0 → ((ix5 b s u o k : (⟨5, ![p, q, r, O, C]⟩ : Shape).Idx) X).val = b.val := by
      intro X hX; subst hX; rfl
    have hpos : d.siKept.idxOf (⟨0, by decide⟩ : Fin 4) = 0 := by rw [hsk]; rfl
    exact key _ ((getElem_triple _ _ _ _ hbd _ _).1 hpos)
  | ⟨1, _⟩ =>
    unfold GatherDims.siIdx
    rw [dif_neg (by rw [hivd]; simp)]
    unfold GatherDims.siCoord
    apply Fin.ext
    simp only [Fin.val_cast]
    have key : ∀ X : Fin 5, X = 1 → ((ix5 b s u o k : (⟨5, ![p, q, r, O, C]⟩ : Shape).Idx) X).val = s.val := by
      intro X hX; subst hX; rfl
    have hpos : d.siKept.idxOf (⟨1, by decide⟩ : Fin 4) = 1 := by rw [hsk]; rfl
    exact key _ ((getElem_triple _ _ _ _ hbd _ _).2.1 hpos)
  | ⟨2, _⟩ =>
    unfold GatherDims.siIdx
    rw [dif_neg (by rw [hivd]; simp)]
    unfold GatherDims.siCoord
    apply Fin.ext
    simp only [Fin.val_cast]
    have key : ∀ X : Fin 5, X = 2 → ((ix5 b s u o k : (⟨5, ![p, q, r, O, C]⟩ : Shape).Idx) X).val = u.val := by
      intro X hX; subst hX; rfl
    have hpos : d.siKept.idxOf (⟨2, by decide⟩ : Fin 4) = 2 := by rw [hsk]; rfl
    exact key _ ((getElem_triple _ _ _ _ hbd _ _).2.2 hpos)
  | ⟨3, _⟩ =>
    unfold GatherDims.siIdx
    rw [dif_pos (by rw [hivd])]
    apply Fin.ext
    show List.idxOf a d.startIndexMap = cpos.val
    exact hc

/-- A gather through a rectangle of index pairs read at `(b, s, u, o, k)`: the table at the pair's two words, each read
    signed and clamped into its axis, and at `(o, k)` inside the slab. -/
theorem gather_pair_apply
    (hoff : d.offsetDims = [3, 4]) (hcoll : d.collapsedSliceDims = [0, 1]) (hob : d.operandBatchingDims = [])
    (hsim : d.startIndexMap = [0, 1]) (hivd : d.indexVectorDim = 3)
    (hss : d.sliceSizes = ![1, 1, O, C]) (hM : 0 < M) (hN : 0 < N)
    (x : (⟨4, ![M, N, O, C]⟩ : Shape).Idx → α) (idx : IVec ⟨4, ![p, q, r, 2]⟩ w)
    (b : Fin p) (s : Fin q) (u : Fin r) (o : Fin O) (k : Fin C) :
    Host.gather d x idx (ix5 b s u o k)
      = x (ix4 ⟨min (idx (ix4 b s u 0)).toInt.toNat (M - 1), by omega⟩
            ⟨min (idx (ix4 b s u 1)).toInt.toNat (N - 1), by omega⟩ o k) := by
  unfold Host.gather
  congr 1
  funext a
  have hb : ∀ a : Fin 4, a ∉ d.operandBatchingDims := by intro a; rw [hob]; exact List.not_mem_nil
  have hsk2 : d.sKept = [2, 3] := by
    show (⟨4, ![M, N, O, C]⟩ : Shape).kept (d.collapsedSliceDims ++ d.operandBatchingDims) = [2, 3]
    rw [hcoll, hob]; rfl
  match a with
  | ⟨0, _⟩ =>
    -- the first table axis: collapsed and start-indexed by the pair's first word
    apply Fin.ext
    show d.start (ix5 b s u o k) idx 0 + d.batchCoord (ix5 b s u o k) 0 + d.offCoord (ix5 b s u o k) 0
      = min (idx (ix4 b s u 0)).toInt.toNat (M - 1)
    have hk : (0 : Fin 4) ∉ d.sKept := by rw [hsk2]; simp
    have hm : (0 : Fin 4) ∈ d.startIndexMap := by rw [hsim]; simp
    rw [d.batchCoord_eq_zero _ _ (hb 0), d.offCoord_eq_zero _ _ hk]
    simp only [Nat.add_zero]
    unfold GatherDims.start
    rw [dif_pos hm]
    have hsl : d.sliceSizes 0 = 1 := by rw [hss]; rfl
    rw [siIdx_eq d hoff hivd b s u o k 0 hm 0 (by rw [hsim]; rfl), hsl]
    rfl
  | ⟨1, _⟩ =>
    -- the second table axis: collapsed and start-indexed by the pair's second word
    apply Fin.ext
    show d.start (ix5 b s u o k) idx 1 + d.batchCoord (ix5 b s u o k) 1 + d.offCoord (ix5 b s u o k) 1
      = min (idx (ix4 b s u 1)).toInt.toNat (N - 1)
    have hk : (1 : Fin 4) ∉ d.sKept := by rw [hsk2]; simp
    have hm : (1 : Fin 4) ∈ d.startIndexMap := by rw [hsim]; simp
    rw [d.batchCoord_eq_zero _ _ (hb 1), d.offCoord_eq_zero _ _ hk]
    simp only [Nat.add_zero]
    unfold GatherDims.start
    rw [dif_pos hm]
    have hsl : d.sliceSizes 1 = 1 := by rw [hss]; rfl
    rw [siIdx_eq d hoff hivd b s u o k 1 hm 1 (by rw [hsim]; rfl), hsl]
    rfl
  | ⟨2, _⟩ =>
    -- the slab's first axis: kept whole, read at the result's first offset coordinate
    apply Fin.ext
    show d.start (ix5 b s u o k) idx 2 + d.batchCoord (ix5 b s u o k) 2 + d.offCoord (ix5 b s u o k) 2 = o.val
    have hm : (2 : Fin 4) ∉ d.startIndexMap := by rw [hsim]; simp
    have hk : (2 : Fin 4) ∈ d.sKept := by rw [hsk2]; simp
    rw [d.batchCoord_eq_zero _ _ (hb 2)]
    unfold GatherDims.start
    rw [dif_neg hm]
    unfold GatherDims.offCoord
    rw [dif_pos hk]
    simp only [Nat.add_zero, Nat.zero_add]
    have key : ∀ X : Fin 5, X = 3 → ((ix5 b s u o k : (⟨5, ![p, q, r, O, C]⟩ : Shape).Idx) X).val = o.val := by
      intro X hX; subst hX; rfl
    have hpos : d.sKept.idxOf (2 : Fin 4) = 0 := by rw [hsk2]; rfl
    exact key _ ((getElem_pair _ _ _ hoff _ _).1 hpos)
  | ⟨3, _⟩ =>
    -- the slab's second axis: kept whole, read at the result's second offset coordinate
    apply Fin.ext
    show d.start (ix5 b s u o k) idx 3 + d.batchCoord (ix5 b s u o k) 3 + d.offCoord (ix5 b s u o k) 3 = k.val
    have hm : (3 : Fin 4) ∉ d.startIndexMap := by rw [hsim]; simp
    have hk : (3 : Fin 4) ∈ d.sKept := by rw [hsk2]; simp
    rw [d.batchCoord_eq_zero _ _ (hb 3)]
    unfold GatherDims.start
    rw [dif_neg hm]
    unfold GatherDims.offCoord
    rw [dif_pos hk]
    simp only [Nat.add_zero, Nat.zero_add]
    have key : ∀ X : Fin 5, X = 4 → ((ix5 b s u o k : (⟨5, ![p, q, r, O, C]⟩ : Shape).Idx) X).val = k.val := by
      intro X hX; subst hX; rfl
    have hpos : d.sKept.idxOf (3 : Fin 4) = 1 := by rw [hsk2]; rfl
    exact key _ ((getElem_pair _ _ _ hoff _ _).2 hpos)

end

end Idealize.ShloMosaic.IndexOpsPair

end
-- ==== Proof.RefLayer.lean ====
import proofs.«124417_j68599217651720_1_alg».proof.Proof.Gen.ReferenceIdeal.Read
import proofs.«124417_j68599217651720_1_alg».proof.Proof.LibGatherPair
import proofs.«124417_j68599217651720_1_alg».proof.Proof.Spec
import Idealize.ShloMosaic.Lib.Pipeline.Value
import Idealize.ShloMosaic.Lib.ValueIdx
import Idealize.ShloMosaic.PureOps.Ideal.Laws

/-!
The reference, entry by entry, is the specified layer.

The reference looks every code up in the codebook through pairs (codebook number, code) — there is one codebook, so the
first word of every pair is 0 —, sums over the one codebook, scales every weight entry by its row's scale, lays the
groups out as a `[11008, 4096]` matrix, and multiplies the input rows with its transpose before adding the biases. Its
entry `(b, n)` is `∑ k, x[b, k] · (w[n, k] · scale[n]) + bias[n]`; for real inputs that is the specification's
`(∑ k, x[b, k] · w[n, k]) · scale[n] + bias[n]`.
-/

noncomputable section

open scoped BigOperators

namespace Cert.ReferenceIdeal.Layer

open Cert.ReferenceIdeal Cert.ReferenceIdeal.Gen Cert.ReferenceIdeal.Read Idealize.ShloMosaic Idealize.ShloMosaic.ValueIdx
open Cert.CodebookLinear

/-- The second word of the pair at `(n, g)`: the code of group `g` of row `n`, wrapped where negative. -/
theorem pair_code (x2 : IVec S11008x512x1 32) (n : Fin 11008) (g : Fin 512) :
    val_main_v15 (F := Ideal) x2 (ix4 n g 0 1) = wrapCode (x2 (ix3 n g 0)) := by
  unfold val_main_v15
  rw [concatenate_pair_apply_right (t := S11008x512x1x2) (s₁ := S11008x512x1x1) (s₂ := S11008x512x1x1) (3 : Fin S11008x512x1x2.rank) _ _ _ (ix4 n g (0 : Fin 1) (1 : Fin 2)) rfl rfl
    (ix4 n g (0 : Fin 1) (0 : Fin 1))
    (fun b hb => by
      match b with
      | ⟨0, _⟩ => rfl
      | ⟨1, _⟩ => rfl
      | ⟨2, _⟩ => rfl
      | ⟨3, _⟩ => exact absurd rfl hb)
    rfl]
  have e14 : idx_main_v14 (ix4 n g (0 : Fin 1) (0 : Fin 1)) = ix3 n g (0 : Fin 1) := funext fun a => by
    match a with
    | ⟨0, _⟩ => rfl
    | ⟨1, _⟩ => rfl
    | ⟨2, _⟩ => rfl
  rw [val_main_v14_apply, e14]
  rfl

/-- The gathered lanes at `(n, g, ·, ·, l)`: lane `l` of the codebook row the code of group `g` of row `n` names. -/
theorem gathered_at (x1 : FVec Ideal S1x65536x1x8 .f32) (x2 : IVec S11008x512x1 32) (n : Fin 11008) (g : Fin 512) (l : Fin 8) :
    val_main_v16 (F := Ideal) x1 x2 (ix5 n g 0 0 l) = x1 (ix4 0 (codeRow (x2 (ix3 n g 0))) 0 l) := by
  unfold val_main_v16
  refine (IndexOpsPair.gather_pair_apply gather_S1x65536x1x8_S11008x512x1x2_S11008x512x1x1x8_34_01_n_n_01_3_1118 rfl rfl rfl rfl rfl rfl (by decide) (by decide) x1 _ n g (0 : Fin 1) (0 : Fin 1) l).trans
    (congrArg x1 (funext fun e => ?_))
  match e with
  | ⟨0, _⟩ => exact Fin.ext (Nat.le_zero.mp (Nat.min_le_right _ _))
  | ⟨1, _⟩ =>
    apply Fin.ext
    show min (val_main_v15 (F := Ideal) x2 (ix4 n g 0 1)).toInt.toNat (65536 - 1) = min (wrapCode (x2 (ix3 n g 0))).toInt.toNat (65536 - 1)
    rw [pair_code]
  | ⟨2, _⟩ => rfl
  | ⟨3, _⟩ => rfl

/-- The transposed, scaled weight matrix at `(k, n)`: the specification's weight entry `(n, k)` times row `n`'s scale. -/
theorem scaledT_at (x1 : FVec Ideal S1x65536x1x8 .f32) (x2 : IVec S11008x512x1 32) (x3 : FVec Ideal S11008x1x1x1 .f32)
    (n : Fin 11008) (k : Fin 4096) :
    val_main_v22 (F := Ideal) x1 x2 x3 (ix2 k n) = weight x1 x2 n k * x3 (ix4 n 0 0 0) := by
  have e22 : idx_main_v22 (ix2 k n) = ix2 n k := funext fun a => by
    match a with
    | ⟨0, _⟩ => rfl
    | ⟨1, _⟩ => rfl
  have e21 : idx_main_v21 (ix2 n k) = ix4 n (0 : Fin 1) (grp k) (lane k) := funext fun a => Fin.ext (by
    have hk : k.val < 4096 := k.isLt
    match a with
    | ⟨0, _⟩ => show (n.val * 4096 + k.val) / 4096 = n.val; omega
    | ⟨1, _⟩ => rfl
    | ⟨2, _⟩ => show (n.val * 4096 + k.val) / 8 % 512 = k.val / 8; omega
    | ⟨3, _⟩ => show (n.val * 4096 + k.val) % 8 = k.val % 8; omega)
  have e20 : idx_main_v20 (ix4 n (0 : Fin 1) (grp k) (lane k)) = ix4 n (grp k) (0 : Fin 1) (lane k) := funext fun a => by
    match a with
    | ⟨0, _⟩ => rfl
    | ⟨1, _⟩ => rfl
    | ⟨2, _⟩ => rfl
    | ⟨3, _⟩ => rfl
  have e18 : idx_main_v18 (ix4 n (grp k) (0 : Fin 1) (lane k)) = ix4 n (0 : Fin 1) (0 : Fin 1) (0 : Fin 1) := funext fun a => by
    match a with
    | ⟨0, _⟩ => rfl
    | ⟨1, _⟩ => rfl
    | ⟨2, _⟩ => rfl
    | ⟨3, _⟩ => rfl
  have e17 : idx_main_v17 (ix4 n (grp k) (0 : Fin 1) (lane k)) (0 : Fin 1) = ix5 n (grp k) (0 : Fin 1) (0 : Fin 1) (lane k) := funext fun a => by
    match a with
    | ⟨0, _⟩ => rfl
    | ⟨1, _⟩ => rfl
    | ⟨2, _⟩ => rfl
    | ⟨3, _⟩ => rfl
    | ⟨4, _⟩ => rfl
  have hc : val_main_cst (F := Ideal) (Shape.Idx.first h_S_) = 0 := Ideal.ofBits_zero_f32
  rw [val_main_v22_apply, e22, val_main_v21_apply, e21, val_main_v20_apply, e20, val_main_v19_apply, val_main_v17_apply,
    val_main_v18_apply, e18, hc, Fin.sum_univ_one, e17, gathered_at, zero_add]
  rfl

/-- THE REFERENCE IS THE LAYER: for real input rows, codebook and scales, the reference's result is the specified
    layer of its arguments. -/
theorem reference_eq (x0 : FVec Ideal S4x4096 .f32) (x1 : FVec Ideal S1x65536x1x8 .f32) (x2 : IVec S11008x512x1 32)
    (x3 : FVec Ideal S11008x1x1x1 .f32) (x4 : FVec Ideal S11008 .f32)
    (h0 : ∀ i, ∃ r : ℝ, x0 i = (r : EReal)) (h1 : ∀ i, ∃ r : ℝ, x1 i = (r : EReal)) (h3 : ∀ i, ∃ r : ℝ, x3 i = (r : EReal)) :
    val_main_v26 (F := Ideal) x0 x1 x2 x3 x4 = out x0 x1 x2 x3 x4 := by
  funext j
  obtain ⟨b, n, rfl⟩ : ∃ (b : Fin 4) (n : Fin 11008), j = ix2 b n := ⟨j 0, j 1, eq_ix2 j⟩
  have hl : ∀ k : Fin 4096, lidx_main_v23 (ix2 b n) k = ix2 b k := fun k => funext fun a => by
    match a with
    | ⟨0, _⟩ => rfl
    | ⟨1, _⟩ => rfl
  have hr : ∀ k : Fin 4096, ridx_main_v23 (ix2 b n) k = ix2 k n := fun k => funext fun a => by
    match a with
    | ⟨0, _⟩ => rfl
    | ⟨1, _⟩ => rfl
  have hb : idx_main_v24 (idx_main_v25 (ix2 b n)) = ix1 n := funext fun a => by
    match a with
    | ⟨0, _⟩ => rfl
  rw [val_main_v26_apply, val_main_v23_apply, val_main_v25_apply, val_main_v24_apply, hb]
  simp only [hl, hr, scaledT_at]
  rw [sum_scaled (fun k : Fin 4096 => x0 (ix2 b k)) (fun k => weight x1 x2 n k) (x3 (ix4 n 0 0 0))
    (fun k => h0 _) (fun k => h1 _) (h3 _)]
  rfl

end Cert.ReferenceIdeal.Layer

end
-- ==== Proof.lean ====
/-
  A linear layer with a codebook-compressed weight, on the TPU, against its plain array-language reference.

  Both programs compute `out[b, n] = ∑ k, x[b, k] · w[n, k] · scale[n] + bias[n]` for four input rows, where entry `k` of
  weight row `n` is lane `k % 8` of the codebook row named by the code of group `k / 8` of that row (a negative code
  counts from the table's end; the result is clamped into the table). The kernel gathers the unscaled weight on the
  host, multiplies tiles of 256 weight rows with the input rows on the matrix unit and applies scale and bias to the
  finished dot products; the reference scales every weight entry first and multiplies afterwards. Over real inputs —
  which the precondition grants for the input rows, the codebook and the scales — the scale moves across the sum, so
  the two results are one function of the arguments (Proof/Spec.lean `out`, `sum_scaled`).

  The kernel's result array is read off its run tile by tile (Proof/KernelLayer.lean, over Proof/KernelBody.lean for
  one step's arithmetic and Proof/KernelArrays.lean for the arrays the host prepares); the reference's result is read
  operation by operation (Proof/RefLayer.lean, with Proof/LibGatherPair.lean for its two-word gather); the
  precondition is decoded in Proof/Finite.lean.
-/
import proofs.«124417_j68599217651720_1_alg».proof.Defs
import proofs.«124417_j68599217651720_1_alg».proof.Proof.Gen.Kernel
import proofs.«124417_j68599217651720_1_alg».proof.Proof.Gen.Kernel.Skeleton
import proofs.«124417_j68599217651720_1_alg».proof.Proof.Gen.Kernel.Launch
import proofs.«124417_j68599217651720_1_alg».proof.Proof.Gen.Kernel.Points
import proofs.«124417_j68599217651720_1_alg».proof.Proof.Gen.Kernel.Frame
import proofs.«124417_j68599217651720_1_alg».proof.Proof.Gen.KernelIdeal
import proofs.«124417_j68599217651720_1_alg».proof.Proof.Gen.KernelIdeal.Skeleton
import proofs.«124417_j68599217651720_1_alg».proof.Proof.Gen.KernelIdeal.Launch
import proofs.«124417_j68599217651720_1_alg».proof.Proof.Gen.KernelIdeal.Points
import proofs.«124417_j68599217651720_1_alg».proof.Proof.Gen.KernelIdeal.Frame
import proofs.«124417_j68599217651720_1_alg».proof.Proof.Gen.ReferenceIdeal
import proofs.«124417_j68599217651720_1_alg».proof.Proof.Gen.KernelIdeal.Value
import proofs.«124417_j68599217651720_1_alg».proof.Proof.Gen.ReferenceIdeal.Run
import proofs.«124417_j68599217651720_1_alg».proof.Proof.Gen.ReferenceIdeal.Read
import proofs.«124417_j68599217651720_1_alg».proof.Proof.Gen.Pre_finite_inputs
import proofs.«124417_j68599217651720_1_alg».proof.Proof.Finite
import proofs.«124417_j68599217651720_1_alg».proof.Proof.KernelLayer
import proofs.«124417_j68599217651720_1_alg».proof.Proof.RefLayer
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading over exact values. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, kernel and reference both end holding the layer of the kernel's
    arguments: the kernel by its run read tile by tile, the reference because, the precondition making the input rows,
    the codebook and the scales real, scaling the weight entries first gives the same sums. -/
theorem algebraic : Cert.algebraic_KernelIdeal_ReferenceIdeal := by
  intro m ρ m' ρ' hpre hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h3⟩ := Cert.FiniteInputs.real_of_pre _ _ _ _ _ (hpre c)
  rw [(hagree c).1, (hagree c).2.1, (hagree c).2.2.1, (hagree c).2.2.2.1, (hagree c).2.2.2.2, Cert.ReferenceIdeal.Read.val_main_v26_eq]
  exact Cert.ReferenceIdeal.Layer.reference_eq _ _ _ _ _ h0 h1 h3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
